-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S64x2 : Shape := ⟨2, ![64, 2]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel

variable [Facts]

def fn {F : FTy → Type} [FloatOps F] (main_arg0 : FVec F S64x1024x256 .f32) (main_arg1 : IVec S64x2 32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  main_v3
-- ==== Kernel.lean ====
abbrev S64x1024x256 : Shape := ⟨3, ![64, 1024, 256]⟩
abbrev S64x2 : Shape := ⟨2, ![64, 2]⟩
abbrev S64x2x1 : Shape := ⟨3, ![64, 2, 1]⟩
abbrev S_ : Shape := ⟨0, ![]⟩
abbrev S1 : Shape := ⟨1, ![1]⟩
abbrev S1x1x1 : Shape := ⟨3, ![1, 1, 1]⟩
abbrev S64x2x256 : Shape := ⟨3, ![64, 2, 256]⟩
abbrev S64x1x512 : Shape := ⟨3, ![64, 1, 512]⟩
abbrev S64x1024x768 : Shape := ⟨3, ![64, 1024, 768]⟩
abbrev S2x1024x256 : Shape := ⟨3, ![2, 1024, 256]⟩
abbrev S2x1x512 : Shape := ⟨3, ![2, 1, 512]⟩
abbrev S2x1024x768 : Shape := ⟨3, ![2, 1024, 768]⟩
abbrev S2x1024x512 : Shape := ⟨3, ![2, 1024, 512]⟩

abbrev nBuf : Space → Nat
  | .hbm => 27
  | .vmem => 6
  | .smem => 0
  | _ => 0

abbrev bufTy : (tb : Table) → Fin (tcTables nBuf tb) → BufTy
  | .hbm, ⟨0, _⟩ => ⟨S64x1024x256, .f32⟩
  | .hbm, ⟨1, _⟩ => ⟨S64x2, .i32⟩
  | .hbm, ⟨2, _⟩ => ⟨S64x2x1, .i32⟩
  | .hbm, ⟨3, _⟩ => ⟨S_, .i32⟩
  | .hbm, ⟨4, _⟩ => ⟨S64x2x1, .i32⟩
  | .hbm, ⟨5, _⟩ => ⟨S64x2x1, .i1⟩
  | .hbm, ⟨6, _⟩ => ⟨S_, .i32⟩
  | .hbm, ⟨7, _⟩ => ⟨S64x2x1, .i32⟩
  | .hbm, ⟨8, _⟩ => ⟨S64x2x1, .i32⟩
  | .hbm, ⟨9, _⟩ => ⟨S64x2x1, .i32⟩
  | .hbm, ⟨10, _⟩ => ⟨S1, .i32⟩
  | .hbm, ⟨11, _⟩ => ⟨S_, .i32⟩
  | .hbm, ⟨12, _⟩ => ⟨S64x2x1, .i32⟩
  | .hbm, ⟨13, _⟩ => ⟨S64x2x1, .i1⟩
  | .hbm, ⟨14, _⟩ => ⟨S1x1x1, .i32⟩
  | .hbm, ⟨15, _⟩ => ⟨S64x2x1, .i32⟩
  | .hbm, ⟨16, _⟩ => ⟨S64x2x1, .i1⟩
  | .hbm, ⟨17, _⟩ => ⟨S64x2x1, .i1⟩
  | .hbm, ⟨18, _⟩ => ⟨S_, .i1⟩
  | .hbm, ⟨19, _⟩ => ⟨S64x2, .i1⟩
  | .hbm, ⟨20, _⟩ => ⟨S64x2x256, .f32⟩
  | .hbm, ⟨21, _⟩ => ⟨S64x2x256, .i1⟩
  | .hbm, ⟨22, _⟩ => ⟨S_, .f32⟩
  | .hbm, ⟨23, _⟩ => ⟨S64x2x256, .f32⟩
  | .hbm, ⟨24, _⟩ => ⟨S64x2x256, .f32⟩
  | .hbm, ⟨25, _⟩ => ⟨S64x1x512, .f32⟩
  | .hbm, ⟨26, _⟩ => ⟨S64x1024x768, .f32⟩
  | .local _ .vmem, ⟨0, _⟩ => ⟨S2x1024x256, .f32⟩
  | .local _ .vmem, ⟨1, _⟩ => ⟨S2x1024x256, .f32⟩
  | .local _ .vmem, ⟨2, _⟩ => ⟨S2x1x512, .f32⟩
  | .local _ .vmem, ⟨3, _⟩ => ⟨S2x1x512, .f32⟩
  | .local _ .vmem, ⟨4, _⟩ => ⟨S2x1024x768, .f32⟩
  | .local _ .vmem, ⟨5, _⟩ => ⟨S2x1024x768, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S1_S1x1x1_2 : S1.BroadcastsInDim S1x1x1 (![2] : Fin 1 → Fin S1x1x1.rank)
  bcast_S1x1x1_S64x2x1_0_1_2 : S1x1x1.BroadcastsInDim S64x2x1 (![0, 1, 2] : Fin 3 → Fin S64x2x1.rank)
  reducesTo_S64x2x1_S64x2_d2 : S64x2x1.ReducesTo [2] S64x2
  h_S_ : 0 < S_.numel
  bcast_S64x2_S64x2x256_0_1 : S64x2.BroadcastsInDim S64x2x256 (![0, 1] : Fin 2 → Fin S64x2x256.rank)
  bcast_S_S64x2x256 : S_.BroadcastsInDim S64x2x256 (![] : Fin 0 → Fin S64x2x256.rank)
  shapeCasts_S64x2x256_S64x1x512 : S64x2x256.ShapeCasts S64x1x512
  inb_S2x1024x256_S2x1024x256_0_0_0 : ∀ a, (![0, 0, 0] : Fin 3 → Nat) a + S2x1024x256.size a ≤ S2x1024x256.size a
  h_S2x1024x256 : 0 < S2x1024x256.numel
  inb_S2x1024x768_S2x1024x256_0_0_0 : ∀ a, (![0, 0, 0] : Fin 3 → Nat) a + S2x1024x256.size a ≤ S2x1024x768.size a
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  broadcasts_S2x1x512_S2x1024x512 : S2x1x512.Broadcasts S2x1024x512
  inb_S2x1024x768_S2x1024x512_0_0_256 : ∀ a, (![0, 0, 256] : Fin 3 → Nat) a + S2x1024x512.size a ≤ S2x1024x768.size a
  h_S2x1024x512 : 0 < S2x1024x512.numel
  gather_S64x1024x256_S64x2x1_S64x2x256_2_1_0_0_1_2_11256_wf : GatherDims.WF S64x1024x256 S64x2x1 S64x2x256 [2] [1] [0] [1] [0] 2 ![1, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S64x1024x256.size a
  hwx0_0 : ∀ i : grid0.Coords, EltTy.bits .f32 = 32 ∨ (Rect.block (s := S64x1024x256) S2x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512.size a ≤ S64x1x512.size a
  hwx0_1 : ∀ i : grid0.Coords, EltTy.bits .f32 = 32 ∨ (Rect.block (s := S64x1x512) S2x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x768.size a ≤ S64x1024x768.size a
  hwx0_2 : ∀ i : grid0.Coords, EltTy.bits .f32 = 32 ∨ (Rect.block (s := S64x1024x768) S2x1024x768.size (cc0_transform_2 i) (hinb0_2 i)).WholeWords (EltTy.packing .f32)

variable [Facts₀]

def gather_S64x1024x256_S64x2x1_S64x2x256_2_1_0_0_1_2_11256 : GatherDims S64x1024x256 S64x2x1 S64x2x256 where
  offsetDims := [2]
  collapsedSliceDims := [1]
  operandBatchingDims := [0]
  startIndicesBatchingDims := [0]
  startIndexMap := [1]
  indexVectorDim := 2
  sliceSizes := ![1, 1, 256]
  wf := gather_S64x1024x256_S64x2x1_S64x2x256_2_1_0_0_1_2_11256_wf

abbrev win0_0 : Pipeline.Window sig grid0 :=
  Pipeline.Window.ofSpec (Memref.whole main_arg0) S2x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S64x2 : Shape := ⟨2, ![64, 2]⟩
abbrev S64x2x1 : Shape := ⟨3, ![64, 2, 1]⟩
abbrev S_ : Shape := ⟨0, ![]⟩
abbrev S1 : Shape := ⟨1, ![1]⟩
abbrev S1x1x1 : Shape := ⟨3, ![1, 1, 1]⟩
abbrev S64x2x256 : Shape := ⟨3, ![64, 2, 256]⟩
abbrev S64x512 : Shape := ⟨2, ![64, 512]⟩
abbrev S64x1x512 : Shape := ⟨3, ![64, 1, 512]⟩
abbrev S64x1024x512 : Shape := ⟨3, ![64, 1024, 512]⟩
abbrev S64x1024x768 : Shape := ⟨3, ![64, 1024, 768]⟩

abbrev nBuf : Space → Nat
  | .hbm => 29
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x2, .i32⟩
  | .hbm, ⟨2, _⟩ => ⟨S64x2x1, .i32⟩
  | .hbm, ⟨3, _⟩ => ⟨S_, .i32⟩
  | .hbm, ⟨4, _⟩ => ⟨S64x2x1, .i32⟩
  | .hbm, ⟨5, _⟩ => ⟨S64x2x1, .i1⟩
  | .hbm, ⟨6, _⟩ => ⟨S_, .i32⟩
  | .hbm, ⟨7, _⟩ => ⟨S64x2x1, .i32⟩
  | .hbm, ⟨8, _⟩ => ⟨S64x2x1, .i32⟩
  | .hbm, ⟨9, _⟩ => ⟨S64x2x1, .i32⟩
  | .hbm, ⟨10, _⟩ => ⟨S1, .i32⟩
  | .hbm, ⟨11, _⟩ => ⟨S_, .i32⟩
  | .hbm, ⟨12, _⟩ => ⟨S64x2x1, .i32⟩
  | .hbm, ⟨13, _⟩ => ⟨S64x2x1, .i1⟩
  | .hbm, ⟨14, _⟩ => ⟨S1x1x1, .i32⟩
  | .hbm, ⟨15, _⟩ => ⟨S64x2x1, .i32⟩
  | .hbm, ⟨16, _⟩ => ⟨S64x2x1, .i1⟩
  | .hbm, ⟨17, _⟩ => ⟨S64x2x1, .i1⟩
  | .hbm, ⟨18, _⟩ => ⟨S_, .i1⟩
  | .hbm, ⟨19, _⟩ => ⟨S64x2, .i1⟩
  | .hbm, ⟨20, _⟩ => ⟨S64x2x256, .f32⟩
  | .hbm, ⟨21, _⟩ => ⟨S64x2x256, .i1⟩
  | .hbm, ⟨22, _⟩ => ⟨S_, .f32⟩
  | .hbm, ⟨23, _⟩ => ⟨S64x2x256, .f32⟩
  | .hbm, ⟨24, _⟩ => ⟨S64x2x256, .f32⟩
  | .hbm, ⟨25, _⟩ => ⟨S64x512, .f32⟩
  | .hbm, ⟨26, _⟩ => ⟨S64x1x512, .f32⟩
  | .hbm, ⟨27, _⟩ => ⟨S64x1024x512, .f32⟩
  | .hbm, ⟨28, _⟩ => ⟨S64x1024x768, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩

abbrev nD : Nat := 1
abbrev τ : Topo := Topo.v7x

variable {F : FTy → Type} [FloatOps F]

class Facts₀ : Prop where
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S1_S1x1x1_2 : S1.BroadcastsInDim S1x1x1 (![2] : Fin 1 → Fin S1x1x1.rank)
  bcast_S1x1x1_S64x2x1_0_1_2 : S1x1x1.BroadcastsInDim S64x2x1 (![0, 1, 2] : Fin 3 → Fin S64x2x1.rank)
  reducesTo_S64x2x1_S64x2_d2 : S64x2x1.ReducesTo [2] S64x2
  h_S_ : 0 < S_.numel
  bcast_S64x2_S64x2x256_0_1 : S64x2.BroadcastsInDim S64x2x256 (![0, 1] : Fin 2 → Fin S64x2x256.rank)
  bcast_S_S64x2x256 : S_.BroadcastsInDim S64x2x256 (![] : Fin 0 → Fin S64x2x256.rank)
  shapeCasts_S64x2x256_S64x512 : S64x2x256.ShapeCasts S64x512
  bcast_S64x512_S64x1x512_0_2 : S64x512.BroadcastsInDim S64x1x512 (![0, 2] : Fin 2 → Fin S64x1x512.rank)
  bcast_S64x1x512_S64x1024x512_0_1_2 : S64x1x512.BroadcastsInDim S64x1024x512 (![0, 1, 2] : Fin 3 → Fin S64x1024x512.rank)
  concatenates_S64x1024x256_S64x1024x512_S64x1024x768_d2 : Shape.Concatenates [S64x1024x256, S64x1024x512] S64x1024x768 2
  gather_S64x1024x256_S64x2x1_S64x2x256_2_1_0_0_1_2_11256_wf : GatherDims.WF S64x1024x256 S64x2x1 S64x2x256 [2] [1] [0] [1] [0] 2 ![1, 1, 256]

variable [Facts₀]

def gather_S64x1024x256_S64x2x1_S64x2x256_2_1_0_0_1_2_11256 : GatherDims S64x1024x256 S64x2x1 S64x2x256 where
  offsetDims := [2]
  collapsedSliceDims := [1]
  operandBatchingDims := [0]
  startIndicesBatchingDims := [0]
  startIndexMap := [1]
  indexVectorDim := 2
  sliceSizes := ![1, 1, 256]
  wf := gather_S64x1024x256_S64x2x1_S64x2x256_2_1_0_0_1_2_11256_wf

class Facts : Prop extends Facts₀ where

variable [Facts]
-- ==== Proof.RowLayout.lean ====
/-
  The result as one function of the arguments, over literal shapes and any element type.

  Write x for the [64, 1024, 256] input and p for the [64, 2, 256] array of the two rows picked per batch.
  The [64, 1024, 768] result holds, in row (b, l), first the 256 entries of x's row (b, l) and then the
  512 entries p (b, 0, ·), p (b, 1, ·) laid end to end: lane j < 256 is x (b, l, j); lane j ≥ 256 is
  p (b, (j - 256) / 256, (j - 256) % 256), whatever l is.

  Both programs reach the last 512 lanes through a row-major regrouping of p: one to [64, 1, 512], the
  other to [64, 512].  Regrouping keeps the row-major position, and position b * 512 + k of p is
  (b, k / 256, k % 256); the two reading lemmas below say so.
-/
import Idealize.ShloMosaic.Lib.ValueIdx
import Idealize.ShloMosaic.Lib.Pipeline.Value

noncomputable section

namespace Cert.RowLayout

open Idealize.ShloMosaic Idealize.ShloMosaic.ValueIdx

/-- The input, the picked rows, the result, and the two regroupings of the picked rows. -/
abbrev SIn : Shape := ⟨3, ![64, 1024, 256]⟩
abbrev SPick : Shape := ⟨3, ![64, 2, 256]⟩
abbrev SRes : Shape := ⟨3, ![64, 1024, 768]⟩
abbrev SRow3 : Shape := ⟨3, ![64, 1, 512]⟩
abbrev SRow2 : Shape := ⟨2, ![64, 512]⟩

variable {α : Type}

/-- Which picked row, and which lane of it, position k of a batch's 512 trailing lanes is. -/
def pickAt (b : Fin 64) (k : Fin 512) : SPick.Idx :=
  ix3 b (⟨k.val / 256, by have := k.isLt; omega⟩ : Fin 2) (⟨k.val % 256, Nat.mod_lt _ (by norm_num)⟩ : Fin 256)

/-- The result: x's row followed by the batch's two picked rows. -/
def widened (x : SIn.Idx → α) (p : SPick.Idx → α) : SRes.Idx → α := fun i =>
  if h : (i 2).val < 256 then x (ix3 (i 0) (i 1) (⟨(i 2).val, h⟩ : Fin 256))
  else p (pickAt (i 0) ⟨(i 2).val - 256, by have : (i 2).val < 768 := (i 2).isLt; omega⟩)

theorem widened_left (x : SIn.Idx → α) (p : SPick.Idx → α) (b : Fin 64) (l : Fin 1024) (j : Fin 768) (h : j.val < 256) :
    widened x p (ix3 b l j) = x (ix3 b l (⟨j.val, h⟩ : Fin 256)) := by
  unfold widened
  rw [dif_pos (show ((ix3 b l j : SRes.Idx) 2).val < 256 from h)]

theorem widened_right (x : SIn.Idx → α) (p : SPick.Idx → α) (b : Fin 64) (l : Fin 1024) (j : Fin 768) (h : 256 ≤ j.val) :
    widened x p (ix3 b l j) = p (pickAt b ⟨j.val - 256, by have := j.isLt; omega⟩) := by
  unfold widened
  rw [dif_neg (show ¬ ((ix3 b l j : SRes.Idx) 2).val < 256 from Nat.not_lt.2 h)]

/-- The picked rows regrouped to [64, 1, 512], read at (b, 0, k). -/
theorem row3_apply (p : SPick.Idx → α) (h : SPick.ShapeCasts SRow3) (b : Fin 64) (z : Fin 1) (k : Fin 512) :
    shapeCast SRow3 p h (ix3 b z k) = p (pickAt b k) := by
  refine shapeCast_apply p h _ _ ?_
  rw [Shape.rowMajor_val_three, Shape.rowMajor_val_three]
  show ((b.val * 2 + k.val / 256) * 256 + k.val % 256) = ((b.val * 1 + z.val) * 512 + k.val)
  have := z.isLt
  omega

/-- The picked rows regrouped to [64, 512], read at (b, k). -/
theorem row2_apply (p : SPick.Idx → α) (h : SPick.ShapeCasts SRow2) (b : Fin 64) (k : Fin 512) :
    shapeCast SRow2 p h (ix2 b k) = p (pickAt b k) := by
  refine shapeCast_apply p h _ _ ?_
  rw [Shape.rowMajor_val_three, Shape.rowMajor_val_two]
  show ((b.val * 2 + k.val / 256) * 256 + k.val % 256) = (b.val * 512 + k.val)
  omega

end Cert.RowLayout

end
-- ==== Proof.BlockLayout.lean ====
/-
  One grid point's block of the result, and why it is a block of `RowLayout.widened`.

  Grid point q (of 32) handles the two batches 2q and 2q + 1.  It receives the [2, 1024, 256] block of x for
  those batches and the [2, 1, 512] block of the regrouped picked rows, and leaves a [2, 1024, 768] block:
  lanes below 256 are the x block, lanes from 256 on are the picked-rows block repeated along the 1024 rows.

  If the x block is x at batch 2q + p and the picked-rows block is the [64, 1, 512] regrouping of the picked
  rows at batch 2q + p, then that block is `widened` at batch 2q + p: the first case is immediate and the
  second is the reading lemma for the [64, 1, 512] regrouping.
-/
import proofs.«168006_j72507637891611_1_alg».proof.Proof.RowLayout
import Idealize.ShloMosaic.Lib.ValueIdx
import Idealize.ShloMosaic.Lib.Pipeline.Value

noncomputable section

namespace Cert.RowLayout

open Idealize.ShloMosaic Idealize.ShloMosaic.ValueIdx

abbrev SInBlk : Shape := ⟨3, ![2, 1024, 256]⟩
abbrev SRowBlk : Shape := ⟨3, ![2, 1, 512]⟩
abbrev SResBlk : Shape := ⟨3, ![2, 1024, 768]⟩

variable {α : Type}

/-- What one grid point leaves: the x block in the first 256 lanes, the picked-rows block, repeated along
    the rows, in the other 512. -/
def blockOf (xb : SInBlk.Idx → α) (gb : SRowBlk.Idx → α) : SResBlk.Idx → α := fun y =>
  if h : (y 2).val < 256 then xb (ix3 (y 0) (y 1) (⟨(y 2).val, h⟩ : Fin 256))
  else gb (ix3 (y 0) (0 : Fin 1) (⟨(y 2).val - 256, by have : (y 2).val < 768 := (y 2).isLt; omega⟩ : Fin 512))

theorem blockOf_left (xb : SInBlk.Idx → α) (gb : SRowBlk.Idx → α) (p : Fin 2) (l : Fin 1024) (j : Fin 768) (h : j.val < 256) :
    blockOf xb gb (ix3 p l j) = xb (ix3 p l (⟨j.val, h⟩ : Fin 256)) := by
  unfold blockOf
  rw [dif_pos (show ((ix3 p l j : SResBlk.Idx) 2).val < 256 from h)]

theorem blockOf_right (xb : SInBlk.Idx → α) (gb : SRowBlk.Idx → α) (p : Fin 2) (l : Fin 1024) (j : Fin 768) (h : 256 ≤ j.val) :
    blockOf xb gb (ix3 p l j) = gb (ix3 p (0 : Fin 1) (⟨j.val - 256, by have := j.isLt; omega⟩ : Fin 512)) := by
  unfold blockOf
  rw [dif_neg (show ¬ ((ix3 p l j : SResBlk.Idx) 2).val < 256 from Nat.not_lt.2 h)]

/-- Batch 2q + p, for a grid point q < 32 and p < 2. -/
def batchOf (q : Nat) (hq : q < 32) (p : Fin 2) : Fin 64 := ⟨q * 2 + p.val, by have := p.isLt; omega⟩

/-- The block of grid point q, when its inputs are the blocks of x and of the regrouped picked rows at the
    point's two batches, is `widened x picks` at those batches. -/
theorem blockOf_eq_widened (x : SIn.Idx → α) (picks : SPick.Idx → α) (hc : SPick.ShapeCasts SRow3)
    (q : Nat) (hq : q < 32) (xb : SInBlk.Idx → α) (gb : SRowBlk.Idx → α)
    (hxb : ∀ (p : Fin 2) (l : Fin 1024) (j : Fin 256), xb (ix3 p l j) = x (ix3 (batchOf q hq p) l j))
    (hgb : ∀ (p : Fin 2) (k : Fin 512), gb (ix3 p (0 : Fin 1) k) = shapeCast SRow3 picks hc (ix3 (batchOf q hq p) (0 : Fin 1) k))
    (p : Fin 2) (l : Fin 1024) (j : Fin 768) :
    blockOf xb gb (ix3 p l j) = widened x picks (ix3 (batchOf q hq p) l j) := by
  by_cases h : j.val < 256
  · rw [blockOf_left _ _ p l j h, widened_left _ _ _ l j h, hxb]
  · have h' : 256 ≤ j.val := Nat.le_of_not_lt h
    rw [blockOf_right _ _ p l j h', widened_right _ _ _ l j h', hgb, row3_apply]

end Cert.RowLayout

end
-- ==== Proof.LibUnitPieces.lean ====
/-
  Reading what a list of stores leaves, when the last store went through a unit-stride rectangle.

  A list of pieces (last store first) leaves, at each index, the payload of the first piece whose rectangle
  holds the index.  For a unit-stride rectangle with offsets `off` and extents `size` two readings cover
  every case: an index whose coordinates are `off a + x a` for a local index `x` reads the head piece's
  payload at `x`; an index that on some axis lies below the offset, or at or past offset plus extent, is
  outside the head piece and reads what the earlier pieces left.
-/
import Idealize.ShloMosaic.Lib.Pipeline.Value

noncomputable section

namespace Idealize.ShloMosaic.View

variable {Val : EltTy → Type} {S : Shape} {e : EltTy}

/-- An index at offset plus a local index reads the head piece's payload at the local index. -/
theorem canon_cons_unit_apply [∀ e, Nonempty (Val e)] {off size : Fin S.rank → Nat}
    (inb : ∀ a, off a + size a ≤ S.size a) (w : (Rect.unit off size inb).shape.Idx → Val e)
    (L : List (Piece Val S e)) (y : S.Idx) (x : (Rect.unit off size inb).shape.Idx)
    (hx : ∀ a, (y a).val = off a + (x a).val) :
    canon ((⟨Rect.unit off size inb, w⟩ : Piece Val S e) :: L) y = w x := by
  have hy : y = (Rect.unit off size inb).emb x := funext fun a => Fin.ext (by
    rw [Rect.emb_apply, Rect.off_unit, Rect.stride_unit, Nat.one_mul]; exact hx a)
  rw [hy]
  exact canon_cons_emb _ w L x

/-- An index below the head piece's offset on some axis reads what the earlier pieces left. -/
theorem canon_cons_unit_of_lt [∀ e, Nonempty (Val e)] {off size : Fin S.rank → Nat}
    (inb : ∀ a, off a + size a ≤ S.size a) (w : (Rect.unit off size inb).shape.Idx → Val e)
    (L : List (Piece Val S e)) (y : S.Idx) (a : Fin S.rank) (h : (y a).val < off a) :
    canon ((⟨Rect.unit off size inb, w⟩ : Piece Val S e) :: L) y = canon L y :=
  canon_cons_of_not_mem _ L (fun hm => by
    have hm' : y ∈ (Rect.unit off size inb).set := hm
    have := ((Rect.mem_set_unit (inb := inb)).mp hm' a).1
    omega)

/-- An index at or past the head piece's end on some axis reads what the earlier pieces left. -/
theorem canon_cons_unit_of_ge [∀ e, Nonempty (Val e)] {off size : Fin S.rank → Nat}
    (inb : ∀ a, off a + size a ≤ S.size a) (w : (Rect.unit off size inb).shape.Idx → Val e)
    (L : List (Piece Val S e)) (y : S.Idx) (a : Fin S.rank) (h : off a + size a ≤ (y a).val) :
    canon ((⟨Rect.unit off size inb, w⟩ : Piece Val S e) :: L) y = canon L y :=
  canon_cons_of_not_mem _ L (fun hm => by
    have hm' : y ∈ (Rect.unit off size inb).set := hm
    have := ((Rect.mem_set_unit (inb := inb)).mp hm' a).2
    omega)

end Idealize.ShloMosaic.View

end
-- ==== Proof.KernelHost.lean ====
/-
  What the kernel's second operand holds when the region starts.

  Before the region the program picks two rows of x per batch: each position is first wrapped (a negative
  position p stands for p + 1024), a position still outside 0 … 1023 is marked, the rows are gathered, and a
  marked pick is replaced by a fixed fill value.  The [64, 2, 256] result is then regrouped row-major to
  [64, 1, 512], and that array is the region's second operand.  `picked` names the [64, 2, 256] array as a
  function of the two arguments; nothing below looks inside it.
-/
import proofs.«168006_j72507637891611_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-- The two rows picked per batch, with the out-of-range picks filled. -/
def picked (x : Vec F S64x1024x256 .f32) (ids : Vec F S64x2 .i32) : Vec F S64x2x256 .f32 :=
  let pos : Vec F S64x2x1 .i32 := broadcastInDim S64x2x1 ![0, 1] bcast_S64x2_S64x2x1_0_1 ids
  let wrapped : Vec F S64x2x1 .i32 :=
    select (cmpi .slt pos (broadcastInDim S64x2x1 ![] bcast_S_S64x2x1 (constantI S_ 32 0#32)))
      (addi pos (broadcastInDim S64x2x1 ![] bcast_S_S64x2x1 (constantI S_ 32 1024#32))) pos
  let inRange : Vec F S64x2 .i1 :=
    Host.reduce IntOp.andi
      (andi (cmpi .sge wrapped (broadcastInDim S64x2x1 ![] bcast_S_S64x2x1 (constantI S_ 32 0#32)))
        (cmpi .sle wrapped (broadcastInDim S64x2x1 ![0, 1, 2] bcast_S1x1x1_S64x2x1_0_1_2
          (broadcastInDim S1x1x1 ![2] bcast_S1_S1x1x1_2 (constantI S1 32 1023#32)))))
      (constantI S_ 1 1#1) reducesTo_S64x2x1_S64x2_d2 h_S_
  select (broadcastInDim S64x2x256 ![0, 1] bcast_S64x2_S64x2x256_0_1 inRange)
    (Host.gather gather_S64x1024x256_S64x2x1_S64x2x256_2_1_0_0_1_2_11256 x wrapped)
    (broadcastInDim S64x2x256 ![] bcast_S_S64x2x256 (constant S_ .f32 0x7FC00000#32))

variable (m : (ℓ : Loc nD τ sig) → Buf (Elt F) ℓ)

set_option maxHeartbeats 2000000 in
/-- At region entry the second operand is the picked rows regrouped to [64, 1, 512]. -/
theorem entry_rows (c : Dev nD) :
    (V m c main_v2 : S64x1x512.Idx → Elt F .f32)
      = shapeCast S64x1x512 (picked (m ((c : Thread nD τ).loc main_arg0)) (m ((c : Thread nD τ).loc main_arg1)))
          shapeCasts_S64x2x256_S64x1x512 := by
  dsimp only [V]
  simp only [hostOps0, hostOps0_1, hostOps0_2, List.flatten_cons, List.flatten_nil, List.append_nil, List.cons_append,
    List.nil_append]
  after_results
  rfl

end Cert.KernelIdeal.HostSide

end
-- ==== Proof.KernelBlocks.lean ====
/-
  The kernel, block by block, and the array it leaves.

  The region runs over 32 grid points; point t stages the blocks of its three operands at block index
  (t, 0, 0): batches 2t and 2t + 1 of x, of the regrouped picked rows and of the result.  The body stores the
  x block into lanes 0 … 255 of the result block and the picked-rows block, repeated along the 1024 rows,
  into lanes 256 … 767.  The two stores tile the result block, so what a point writes back is
  `RowLayout.blockOf` of its two input blocks, and by `blockOf_eq_widened` that is the point's block of
  `RowLayout.widened x picked`.  The 32 result blocks cover all 64 batches (batch b lies in the block of point
  b / 2), so the whole result array ends as `widened x picked`.
-/
import proofs.«168006_j72507637891611_1_alg».proof.Proof.Gen.KernelIdeal.Value
import proofs.«168006_j72507637891611_1_alg».proof.Proof.RowLayout
import proofs.«168006_j72507637891611_1_alg».proof.Proof.BlockLayout
import proofs.«168006_j72507637891611_1_alg».proof.Proof.LibUnitPieces
import proofs.«168006_j72507637891611_1_alg».proof.Proof.KernelHost
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.KernelIdeal.Value Cert.KernelIdeal.HostSide
open Idealize.ShloMosaic Idealize.ShloMosaic.TcCoe Idealize.SL.Sem Idealize.ShloMosaic.Tactic
open Idealize.ShloMosaic.Pipeline (Dat)
open Idealize.ShloMosaic.ValueIdx Cert.RowLayout

variable {F : FTy → Type} [FloatOps F]

/-! ## The body at one point -/

theorem zeros3 : (![0, 0, 0] : Fin 3 → Nat) = fun _ => 0 := funext fun a => by fin_cases a <;> rfl

/-- The second store's payload repeats the [2, 1, 512] block along the 1024 rows. -/
theorem repeated_apply (gb : Vec F S2x1x512 .f32) (p : Fin 2) (l : Fin 1024) (k : Fin 512) :
    k0_pay1 gb (ix3 p l k) = gb (ix3 p (0 : Fin 1) k) := by
  unfold k0_pay1
  rw [shapeCast_self, shapeCast_self]
  exact broadcastTo_apply gb broadcasts_S2x1x512_S2x1024x512 (ix3 p l k) (ix3 p (0 : Fin 1) k) (fun a => match a with
    | ⟨0, _⟩ => by show p.val = if (2 : Nat) = 1 then 0 else p.val; rw [if_neg (by decide)]
    | ⟨1, _⟩ => by show 0 = if (1 : Nat) = 1 then 0 else l.val; rw [if_pos rfl]
    | ⟨2, _⟩ => by show k.val = if (512 : Nat) = 1 then 0 else k.val; rw [if_neg (by decide)])

/-- What the body leaves in the result's staging buffer: the x block beside the repeated picked-rows block. -/
theorem out_eq (c : Dev nD) (i : grid0.Coords) (arg1 : Memref sig .tc .vmem S2x1024x256 .f32) (harg1 : arg1.IsWhole)
    (arg2 : Memref sig .tc .vmem S2x1x512 .f32) (harg2 : arg2.IsWhole) (arg3 : Memref sig .tc .vmem S2x1024x768 .f32) (harg3 : arg3.IsWhole)
    (x0 : Vec F S2x1024x256 .f32) (x1 : Vec F S2x1x512 .f32) :
    out0_A_2 c i arg1 harg1 arg2 harg2 arg3 harg3 x0 x1 = blockOf x0 x1 := by
  unfold out0_A_2
  rw [View.read_writes_eq_canon _ _ _ (cover0_A_2 c i arg1 harg1 arg2 harg2 arg3 harg3 x0 x1)]
  unfold kernelRun0_A
  dsimp only
  sl_unfold_words
  simp only [View.readAt_eq_ld, harg1.read_unread, harg2.read_unread, View.ld_unit_zero (S := S2x1024x256) zeros3,
    View.ld_unit_zero (S := S2x1x512) zeros3]
  funext y
  obtain ⟨p, l, j, rfl⟩ : ∃ (p : Fin 2) (l : Fin 1024) (j : Fin 768), y = ix3 p l j := ⟨y 0, y 1, y 2, eq_ix3 y⟩
  by_cases h : j.val < 256
  · -- below lane 256: outside the later store, inside the earlier one
    rw [blockOf_left _ _ p l j h]
    refine (View.canon_cons_unit_of_lt _ _ _ (ix3 p l j) 2 (show j.val < 256 from h)).trans ?_
    exact View.canon_cons_unit_apply _ _ _ (ix3 p l j) (ix3 p l (⟨j.val, h⟩ : Fin 256)) (fun a => match a with
      | ⟨0, _⟩ => by show p.val = 0 + p.val; omega
      | ⟨1, _⟩ => by show l.val = 0 + l.val; omega
      | ⟨2, _⟩ => by show j.val = 0 + j.val; omega)
  · -- from lane 256 on: inside the later store
    have h' : 256 ≤ j.val := Nat.le_of_not_lt h
    have hk : j.val - 256 < 512 := by have := j.isLt; omega
    rw [blockOf_right _ _ p l j h']
    refine (View.canon_cons_unit_apply _ _ _ (ix3 p l j) (ix3 p l (⟨j.val - 256, hk⟩ : Fin 512)) (fun a => match a with
      | ⟨0, _⟩ => by show p.val = 0 + p.val; omega
      | ⟨1, _⟩ => by show l.val = 0 + l.val; omega
      | ⟨2, _⟩ => by show j.val = 256 + (j.val - 256); omega)).trans ?_
    exact repeated_apply x1 p l ⟨j.val - 256, hk⟩

/-! ## The blocks over the grid -/

variable (m : (ℓ : Loc nD τ sig) → Buf (Elt F) ℓ) (ρ : Dev nD → PrngReg)

/-- Every window sits at block index (t, 0, 0) at point t. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The two input blocks of point t, at their literal types. -/
abbrev xblk (c : Dev nD) (t : Fin cfg0.N) : Vec F S2x1024x256 .f32 := iblk m c 0 t
abbrev gblk (c : Dev nD) (t : Fin cfg0.N) : Vec F S2x1x512 .f32 := iblk m c 1 t

/-- The x block of point t is x at batches 2t, 2t + 1. -/
theorem xblk_apply (c : Dev nD) (t : Fin cfg0.N) (ht : t.val < 32) (p : Fin 2) (l : Fin 1024) (j : Fin 256) :
    xblk m c t (ix3 p l j) = (m ((c : Thread nD τ).loc main_arg0) : S64x1024x256.Idx → Elt F .f32) (ix3 (batchOf t.val ht p) l j) := by
  obtain ⟨e00, e01, e02, -⟩ := idx_facts t
  show V m c main_arg0 (((cfg0.win 0).blk t).view.emb (ix3 p l j)) = _
  rw [V_main_arg0]
  refine congrArg _ (funext fun a => Fin.ext ?_)
  match a with
  | ⟨0, _⟩ => show win0_0.index t (0 : Fin 3) * 2 + 1 * p.val = t.val * 2 + p.val; omega
  | ⟨1, _⟩ => show win0_0.index t (1 : Fin 3) * 1024 + 1 * l.val = l.val; omega
  | ⟨2, _⟩ => show win0_0.index t (2 : Fin 3) * 256 + 1 * j.val = j.val; omega

/-- The picked-rows block of point t is the regrouped picked rows at batches 2t, 2t + 1. -/
theorem gblk_apply (c : Dev nD) (t : Fin cfg0.N) (ht : t.val < 32) (p : Fin 2) (k : Fin 512) :
    gblk m c t (ix3 p (0 : Fin 1) k)
      = shapeCast S64x1x512 (picked (m ((c : Thread nD τ).loc main_arg0)) (m ((c : Thread nD τ).loc main_arg1)))
          shapeCasts_S64x2x256_S64x1x512 (ix3 (batchOf t.val ht p) (0 : Fin 1) k) := by
  obtain ⟨-, -, -, e10, e11, e12, -⟩ := idx_facts t
  show (V m c main_v2 : S64x1x512.Idx → Elt F .f32) (((cfg0.win 1).blk t).view.emb (ix3 p (0 : Fin 1) k)) = _
  rw [entry_rows]
  refine congrArg _ (funext fun a => Fin.ext ?_)
  match a with
  | ⟨0, _⟩ => show win0_1.index t (0 : Fin 3) * 2 + 1 * p.val = t.val * 2 + p.val; omega
  | ⟨1, _⟩ => show win0_1.index t (1 : Fin 3) * 1 + 1 * 0 = 0; omega
  | ⟨2, _⟩ => show win0_1.index t (2 : Fin 3) * 512 + 1 * k.val = k.val; omega

/-- What point t writes back is its block of `widened x picked`. -/
theorem flushed_eq (c : Dev nD) (t : Fin cfg0.N) :
    (dats m 0 c).flushed 2 t = ((cfg0.win 2).blk t).view.read (Elt F)
      (widened (m ((c : Thread nD τ).loc main_arg0)) (picked (m ((c : Thread nD τ).loc main_arg0)) (m ((c : Thread nD τ).loc main_arg1)))) := by
  rw [flushed2_A, out_eq]
  have ht : t.val < 32 := lt_of_lt_of_eq t.isLt N_0
  obtain ⟨-, -, -, -, -, -, e20, e21, e22⟩ := idx_facts t
  funext y
  have h0 : (y 0).val < 2 := (y 0).isLt
  have h1 : (y 1).val < 1024 := (y 1).isLt
  have h2 : (y 2).val < 768 := (y 2).isLt
  have hy : (cfg0.win 2).xinj (grid0.coords t) y = ix3 (⟨(y 0).val, h0⟩ : Fin 2) (⟨(y 1).val, h1⟩ : Fin 1024) (⟨(y 2).val, h2⟩ : Fin 768) :=
    funext fun a => match a with
      | ⟨0, _⟩ => rfl
      | ⟨1, _⟩ => rfl
      | ⟨2, _⟩ => rfl
  have he : (((cfg0.win 2).blk t).view.emb y : S64x1024x768.Idx)
      = ix3 (batchOf t.val ht ⟨(y 0).val, h0⟩) (⟨(y 1).val, h1⟩ : Fin 1024) (⟨(y 2).val, h2⟩ : Fin 768) :=
    funext fun a => Fin.ext (match a with
      | ⟨0, _⟩ => by show win0_2.index t (0 : Fin 3) * 2 + 1 * (y 0).val = t.val * 2 + (y 0).val; omega
      | ⟨1, _⟩ => by show win0_2.index t (1 : Fin 3) * 1024 + 1 * (y 1).val = (y 1).val; omega
      | ⟨2, _⟩ => by show win0_2.index t (2 : Fin 3) * 768 + 1 * (y 2).val = (y 2).val; omega)
  show blockOf (xblk m c t) (gblk m c t) ((cfg0.win 2).xinj (grid0.coords t) y)
    = widened (m ((c : Thread nD τ).loc main_arg0)) (picked (m ((c : Thread nD τ).loc main_arg0)) (m ((c : Thread nD τ).loc main_arg1)))
        (((cfg0.win 2).blk t).view.emb y)
  rw [hy, he]
  exact blockOf_eq_widened (m ((c : Thread nD τ).loc main_arg0)) (picked (m ((c : Thread nD τ).loc main_arg0)) (m ((c : Thread nD τ).loc main_arg1)))
    shapeCasts_S64x2x256_S64x1x512 t.val ht (xblk m c t) (gblk m c t) (xblk_apply m c t ht) (gblk_apply m c t ht) _ _ _

/-- An index of the result is in point t's block iff each coordinate is in the block's range on its axis. -/
theorem mem_blk (t : Fin cfg0.N) (i : S64x1024x768.Idx) :
    i ∈ ((cfg0.win 2).blk t).view.set ↔ ∀ a : Fin 3, win0_2.index t a * S2x1024x768.size a ≤ (i a).val ∧ (i a).val < win0_2.index t a * S2x1024x768.size a + S2x1024x768.size a := by
  show i ∈ ((View.whole main_v3).slice (win0_2.rect t)).set ↔ _
  rw [View.set_slice_whole, Rect.mem_set_unit]
  exact Iff.rfl

/-- Batch b lies in the block of point b / 2: the 32 blocks cover the result. -/
theorem covered (i : S64x1024x768.Idx) : ∃ t : Fin cfg0.N, (cfg0.win 2).flush t = true ∧ i ∈ ((cfg0.win 2).blk t).view.set := by
  have hi0 : (i 0).val < 64 := (i 0).isLt
  have hi1 : (i 1).val < 1024 := (i 1).isLt
  have hi2 : (i 2).val < 768 := (i 2).isLt
  let t : Fin cfg0.N := ⟨(i 0).val / 2, lt_of_lt_of_eq (by omega : (i 0).val / 2 < 32) N_0.symm⟩
  have htv : t.val = (i 0).val / 2 := rfl
  obtain ⟨-, -, -, -, -, -, e20, e21, e22⟩ := idx_facts t
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 768 ≤ (i 2).val ∧ (i 2).val < win0_2.index t (2 : Fin 3) * 768 + 768; omega

/-- The result array after the run. -/
theorem final (c : Dev nD) :
    (dats m 0 c).arrAt 2 cfg0.N
      = widened (m ((c : Thread nD τ).loc main_arg0)) (picked (m ((c : Thread nD τ).loc main_arg0)) (m ((c : Thread nD τ).loc main_arg1))) :=
  (dats m 0 c).arrAt_eq_of_cover 2 _ (fun t _ => flushed_eq m c t) covered

/-- Every weakly fair execution ends with the result at `widened x picked` and the arguments unchanged. -/
theorem run : θ_run defs (onTc (τ := τ) (main (F := F))) ⟨m, fun _ => 0, ρ⟩ fun r => ∀ c : Dev nD,
      r.2.mem ((c : Thread nD τ).loc main_v3)
        = widened (m ((c : Thread nD τ).loc main_arg0)) (picked (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.RefSide.lean ====
/-
  The reference, read index by index.

  Its last operation joins x with a [64, 1024, 512] array along the lane axis.  That array is the batch's two
  picked rows, regrouped row-major to [64, 512], given a unit middle axis and repeated along all 1024 rows.
  So lane j < 256 of row (b, l) reads x (b, l, j), and lane j ≥ 256 reads position j - 256 of batch b's
  512 regrouped entries, which is the picked-rows array at (b, (j - 256) / 256, (j - 256) % 256): the result
  is `RowLayout.widened` of x and the picked rows.
-/
import proofs.«168006_j72507637891611_1_alg».proof.Proof.Gen.ReferenceIdeal.Read
import proofs.«168006_j72507637891611_1_alg».proof.Proof.RowLayout
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Cert.RowLayout

variable {F : FTy → Type} [FloatOps F]

/-- The joined array is x's row followed by the batch's picked rows, at every index. -/
theorem result_eq (x : Vec F S64x1024x256 .f32) (ids : Vec F S64x2 .i32) :
    val_main_v5 (F := F) x ids = widened x (val_main_v1 (F := F) x ids) := by
  funext i
  obtain ⟨b, l, j, rfl⟩ : ∃ (b : Fin 64) (l : Fin 1024) (j : Fin 768), i = ix3 b l j := ⟨i 0, i 1, i 2, eq_ix3 i⟩
  unfold val_main_v5
  by_cases h : j.val < 256
  · -- a lane of the first piece: x itself
    rw [widened_left _ _ b l j h]
    exact concatenate_pair_apply_left (t := S64x1024x768) (s₁ := S64x1024x256) (s₂ := S64x1024x512) 2 x (val_main_v4 (F := F) x ids)
      concatenates_S64x1024x256_S64x1024x512_S64x1024x768_d2 (ix3 b l j) rfl (ix3 b l (⟨j.val, h⟩ : Fin 256))
      (fun a => match a with | ⟨0, _⟩ => rfl | ⟨1, _⟩ => rfl | ⟨2, _⟩ => rfl)
  · -- a lane of the second piece: the repeated, regrouped picked rows
    have h' : 256 ≤ j.val := Nat.le_of_not_lt h
    have hk : j.val - 256 < 512 := by have := j.isLt; omega
    rw [widened_right _ _ b l j h']
    refine (concatenate_pair_apply_right (t := S64x1024x768) (s₁ := S64x1024x256) (s₂ := S64x1024x512) 2 x (val_main_v4 (F := F) x ids)
      concatenates_S64x1024x256_S64x1024x512_S64x1024x768_d2 (ix3 b l j) rfl rfl (ix3 b l (⟨j.val - 256, hk⟩ : Fin 512)) ?_ ?_).trans ?_
    · intro a ha
      match a, ha with
      | ⟨0, _⟩, _ => rfl
      | ⟨1, _⟩, _ => rfl
      | ⟨2, _⟩, ha => exact absurd rfl ha
    · show (j.val - 256) + 256 = j.val
      omega
    · rw [val_main_v4_apply, val_main_v3_apply]
      unfold val_main_v2
      refine (congrArg _ ?_).trans (row2_apply _ _ b (⟨j.val - 256, hk⟩ : Fin 512))
      funext a
      match a with
      | ⟨0, _⟩ => rfl
      | ⟨1, _⟩ => rfl

end Cert.ReferenceIdeal.RefValue

end
-- ==== Proof.lean ====
/-
  Each row of the result is the row of x followed by the batch's two picked rows laid end to end.

  Both programs pick the same two rows per batch with the same operations (`HostSide.picked`; the reference's
  text for it is the same term).  The kernel regroups the picks to [64, 1, 512], and its region, two batches per
  grid point, stores the x block into lanes 0 … 255 of the result block and the picked-rows block, repeated
  along the 1024 rows, into lanes 256 … 767 (Proof/KernelBlocks.lean).  The reference regroups the picks to
  [64, 512], gives them a unit middle axis, repeats them along the rows and joins them to x along the lane
  axis (Proof/RefSide.lean).  Regrouping keeps row-major position, so both results are the one function
  `RowLayout.widened x picked` (Proof/RowLayout.lean), entry by entry.  Nothing is computed on the entries:
  they are only moved, so no law of the extended reals is used and the precondition is never opened.

  The three frames are the generated ones (the reference's is its generated run with the result dropped); the
  idealization rewrote nothing, so `preserves` is trivial.
-/
import proofs.«168006_j72507637891611_1_alg».proof.Defs
import proofs.«168006_j72507637891611_1_alg».proof.Proof.Gen.Kernel
import proofs.«168006_j72507637891611_1_alg».proof.Proof.Gen.Kernel.Skeleton
import proofs.«168006_j72507637891611_1_alg».proof.Proof.Gen.Kernel.Launch
import proofs.«168006_j72507637891611_1_alg».proof.Proof.Gen.Kernel.Points
import proofs.«168006_j72507637891611_1_alg».proof.Proof.Gen.Kernel.Frame
import proofs.«168006_j72507637891611_1_alg».proof.Proof.Gen.KernelIdeal
import proofs.«168006_j72507637891611_1_alg».proof.Proof.Gen.KernelIdeal.Skeleton
import proofs.«168006_j72507637891611_1_alg».proof.Proof.Gen.KernelIdeal.Launch
import proofs.«168006_j72507637891611_1_alg».proof.Proof.Gen.KernelIdeal.Points
import proofs.«168006_j72507637891611_1_alg».proof.Proof.Gen.KernelIdeal.Frame
import proofs.«168006_j72507637891611_1_alg».proof.Proof.Gen.ReferenceIdeal
import proofs.«168006_j72507637891611_1_alg».proof.Proof.Gen.Pre_finite_inputs
import proofs.«168006_j72507637891611_1_alg».proof.Proof.Gen.KernelIdeal.Value
import proofs.«168006_j72507637891611_1_alg».proof.Proof.Gen.ReferenceIdeal.Run
import proofs.«168006_j72507637891611_1_alg».proof.Proof.Gen.ReferenceIdeal.Read
import proofs.«168006_j72507637891611_1_alg».proof.Proof.KernelBlocks
import proofs.«168006_j72507637891611_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference picks its rows by the same operations as the kernel: the two terms are one. -/
theorem picked_eq (x : Vec Ideal Cert.KernelIdeal.S64x1024x256 .f32) (ids : Vec Ideal Cert.KernelIdeal.S64x2 .i32) :
    Cert.ReferenceIdeal.Read.val_main_v1 (F := Ideal) x ids = Cert.KernelIdeal.HostSide.picked (F := Ideal) x ids := rfl

/-- Both programs end with `widened x picked` of arguments that agree. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, picked_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
